-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values.

  The body has two control cases. At the grid's first point it computes the projected features
  h = x · Wᵀ + b once, parks them in the scratch, and multiplies its slab of the adjacency by them; at every
  later point it only multiplies its slab by what the scratch holds. Each case writes one whole block of the
  output (and, in the first case, the whole scratch), so what the staging buffers hold afterwards is just the
  stored payload: the lemmas below say so, for any float instance.
-/
import proofs.«112131_g35424890258178_cont_8to1_b_1443_17_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point, the scratch: it ends holding the projected features h = x · Wᵀ + b of the three resident blocks. -/
theorem scratch_first (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S10000x128 .f32) (x1 : Vec F S128x128 .f32) (x2 : Vec F S1x128 .f32) (x3 : Vec F S400x10000 .f32) :
    sout0_A_0 c i a1 h1 a2 h2 a3 h3 a4 h4 a5 h5 a6 h6 hc x0 x1 x2 x3 = k0_pay1 x0 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, View.ld_unit_zero (S := S10000x128) hz,
    View.ld_unit_zero (S := S128x128) hz, View.ld_unit_zero (S := S1x128) hz]

/-- First point, the output block: the slab of the adjacency times the features just parked in the scratch
    (the body reads the scratch back after storing it). -/
theorem out_first (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S10000x128 .f32) (x1 : Vec F S128x128 .f32) (x2 : Vec F S1x128 .f32) (x3 : Vec F S400x10000 .f32) :
    out0_A_4 c i a1 h1 a2 h2 a3 h3 a4 h4 a5 h5 a6 h6 hc x0 x1 x2 x3 = k0_pay2 x3 (k0_pay1 x0 x1 x2) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.readCov_unit_zero (S := S10000x128) _ hz, View.ld_unit_zero (S := S10000x128) hz,
    View.ld_unit_zero (S := S128x128) hz, View.ld_unit_zero (S := S1x128) hz, View.ld_unit_zero (S := S400x10000) hz,
    View.ld_unit_zero (S := S400x128) hz]

/-- A later point, the output block: the slab of the adjacency times whatever the scratch holds. -/
theorem out_later (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x128 .bf16) (h6 : a6.IsWhole) (hc : ¬cond0_0 i)
    (x0 : Vec F S10000x128 .f32) (x1 : Vec F S128x128 .f32) (x2 : Vec F S1x128 .f32) (x3 : Vec F S400x10000 .f32)
    (xs : Vec F S10000x128 .bf16) :
    out0_B_4 c i a1 h1 a2 h2 a3 h3 a4 h4 a5 h5 a6 h6 hc x0 x1 x2 x3 xs = k0_pay2 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero hz]
  simp only [View.readAt_eq_ld, h4.read_unread, h6.read_unread, View.ld_unit_zero (S := S10000x128) hz,
    View.ld_unit_zero (S := S400x10000) hz, View.ld_unit_zero (S := S400x128) hz]

end Cert.KernelIdeal.Pieces

end
-- ==== Proof.Carried.lean ====
/-
  The scratch is written once and then only read.

  The first grid point stores the projected features h = x · Wᵀ + b into the scratch; no later point stores into
  it. So after every point the scratch holds those same features (induction on the point), and every point's
  output block is its slab of the adjacency times them.
-/
import proofs.«112131_g35424890258178_cont_8to1_b_1443_17_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The grid's first point. -/
abbrev first : Fin cfg0.N := ⟨0, by rw [show cfg0.N = 25 from N_0]; decide⟩

/-- The projected features, as the first point computes them from the three resident blocks. -/
def feats (c : Dev nD) : Vec F S10000x128 .bf16 :=
  k0_pay1 (iblk m c 0 first) (iblk m c 1 first) (iblk m c 2 first)

/-- After every point the scratch holds the features the first point parked there. -/
theorem scratch_eq (c : Dev nD) : ∀ (n : ℕ) (h : n < cfg0.N), (outsAt0 m c n h).2 = feats m c
  | 0, h => by
    rw [outsAt0_A m c ⟨0, h⟩ rfl]
    dsimp only
    exact scratch_first ..
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- Every point's output block is its slab of the adjacency times the features. -/
theorem out_eq (c : Dev nD) (t : Fin cfg0.N) :
    (outsAt0 m c t.val t.isLt).1 = k0_pay2 (iblk m c 3 t) (feats m c) := by
  have hN : cfg0.N = 25 := N_0
  by_cases h0 : t.val % 25 = 0
  · obtain rfl : t = first := Fin.ext (by have := t.isLt; show t.val = 0; omega)
    rw [outsAt0_A m c first h0]
    dsimp only
    exact out_first ..
  · rw [outsAt0_B m c t h0]
    dsimp only
    rw [out_later, scratch_eq]

end Cert.KernelIdeal.Carried

end
-- ==== Proof.Payload.lean ====
/-
  The two payloads of the kernel body, read at an index, on the extended reals.

  A change of float format is the identity there, and a matrix product into a zero accumulator is the plain sum
  of products over the contracted axis. So
    features:   h[k, q]   = (∑ d, x[k, d] · W[q, d]) + b[0, q]        (W is contracted on its SECOND axis: x · Wᵀ)
    out block:  o[p, q]   = ∑ k, a[p, k] · h[k, q]
  where a is a 400-row slab of the adjacency.
-/
import proofs.«112131_g35424890258178_cont_8to1_b_1443_17_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen ValueIdx

/-! ## The features' product: x[k, ·] against W[q, ·] -/

theorem lhs_feat_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_feat_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_feat_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_feat_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The first product at (k, q): row k of x against row q of W. -/
theorem feat_matmul (x : FVec Ideal S10000x128 .bf16) (w : FVec Ideal S128x128 .bf16) (k : Fin 10000) (q : Fin 128) :
    matmul dot_S10000x128_S128x128_S10000x128_1_1_0_0_n_n none x w (constant S10000x128 .f32 0x00000000#32) (ix2 k q)
      = ∑ d : Fin 128, x (ix2 k d) * w (ix2 q d) := by
  simp only [matmul]
  rw [Ideal.matmul_constant_zero_apply, ← Equiv.sum_comp (ValueIdx.contrEquiv1 dot_S10000x128_S128x128_S10000x128_1_1_0_0_n_n 128 rfl rfl).symm]
  refine Finset.sum_congr rfl fun d _ => ?_
  have hd := ValueIdx.contrEquiv1_symm_val dot_S10000x128_S128x128_S10000x128_1_1_0_0_n_n 128 rfl rfl d
  have el : dot_S10000x128_S128x128_S10000x128_1_1_0_0_n_n.lhsIdx (ix2 k q) ((ValueIdx.contrEquiv1 dot_S10000x128_S128x128_S10000x128_1_1_0_0_n_n 128 rfl rfl).symm d) = ix2 k d := funext fun a => Fin.ext (by
    match a with
    | ⟨0, _⟩ => exact lhs_feat_0 _ _
    | ⟨1, _⟩ => exact (lhs_feat_1 _ _).trans hd)
  have er : dot_S10000x128_S128x128_S10000x128_1_1_0_0_n_n.rhsIdx (ix2 k q) ((ValueIdx.contrEquiv1 dot_S10000x128_S128x128_S10000x128_1_1_0_0_n_n 128 rfl rfl).symm d) = ix2 q d := funext fun a => Fin.ext (by
    match a with
    | ⟨0, _⟩ => exact rhs_feat_0 _ _
    | ⟨1, _⟩ => exact (rhs_feat_1 _ _).trans hd)
  rw [el, er]

/-- The bias row, broadcast down the rows, read at (k, q): the bias at q. -/
theorem bias_apply (b : FVec Ideal S1x128 .f32) (k : Fin 10000) (q : Fin 128) :
    broadcastTo S10000x128 (shapeCast S1x128 b shapeCasts_S1x128_S1x128) broadcasts_S1x128_S10000x128 (ix2 k q)
      = b (ix2 (0 : Fin 1) q) := by
  rw [shapeCast_self]
  exact broadcastTo_apply b broadcasts_S1x128_S10000x128 (ix2 k q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- THE FEATURES at (k, q): row k of x against row q of W, plus the bias at q. -/
theorem feats_apply (x : Vec Ideal S10000x128 .f32) (w : Vec Ideal S128x128 .f32) (b : Vec Ideal S1x128 .f32)
    (k : Fin 10000) (q : Fin 128) :
    k0_pay1 (F := Ideal) x w b (ix2 k q) = (∑ d : Fin 128, x (ix2 k d) * w (ix2 q d)) + b (ix2 (0 : Fin 1) q) := by
  unfold k0_pay1
  refine (congrFun (shapeCast_self _ _) _).trans ?_
  exact congrArg₂ (· + ·) (feat_matmul (truncf .bf16 x bitsLt_bf16_f32) (truncf .bf16 w bitsLt_bf16_f32) k q) (bias_apply b k q)

/-! ## The output block's product: a[p, ·] against h[·, q] -/

theorem lhs_out_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_out_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_out_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_out_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The second product at (p, q): row p of the slab against column q of the features. -/
theorem out_matmul (a : FVec Ideal S400x10000 .bf16) (h : FVec Ideal S10000x128 .bf16) (p : Fin 400) (q : Fin 128) :
    matmul dot_S400x10000_S10000x128_S400x128_1_0_0_1_n_n none a h (constant S400x128 .f32 0x00000000#32) (ix2 p q)
      = ∑ k : Fin 10000, a (ix2 p k) * h (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_out_0 _ _
    | ⟨1, _⟩ => exact (lhs_out_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_out_0 _ _).trans hk
    | ⟨1, _⟩ => exact rhs_out_1 _ _)
  rw [el, er]

/-- THE OUTPUT BLOCK at (p, q). -/
theorem out_apply (a : Vec Ideal S400x10000 .f32) (h : Vec Ideal S10000x128 .bf16) (p : Fin 400) (q : Fin 128) :
    k0_pay2 (F := Ideal) a h (ix2 p q) = ∑ k : Fin 10000, a (ix2 p k) * h (ix2 k q) := by
  unfold k0_pay2
  exact out_matmul (truncf .bf16 a bitsLt_bf16_f32) h p q

end Cert.KernelIdeal.Payload

end
-- ==== Proof.Spec.lean ====
/-
  The function both programs compute: out = A · (x · Wᵀ + b), entry by entry, on the extended reals.

    out[i, j] = ∑ k, A[i, k] · ((∑ d, x[k, d] · W[j, d]) + b[j])

  (N = 10000 nodes, 128 input and 128 output features; the division by the temperature 1 in the reference is the
  identity and does not appear.)
-/
import Idealize.ShloMosaic.PureOps.Ideal
import Idealize.ShloMosaic.Lib.ValueIdx

noncomputable section

open Idealize.ShloMosaic

namespace Cert.Spec

open ValueIdx

/-- The graph convolution: the adjacency applied to the linearly projected features. -/
def tgcn (x : (⟨2, ![10000, 128]⟩ : Shape).Idx → Ideal .f32) (A : (⟨2, ![10000, 10000]⟩ : Shape).Idx → Ideal .f32)
    (W : (⟨2, ![128, 128]⟩ : Shape).Idx → Ideal .f32) (b : (⟨1, ![128]⟩ : Shape).Idx → Ideal .f32) :
    (⟨2, ![10000, 128]⟩ : Shape).Idx → Ideal .f32 :=
  fun i => ∑ k : Fin 10000, A (ix2 (i 0) k) * ((∑ d : Fin 128, x (ix2 k d) * W (ix2 (i 1) d)) + b (ix1 (i 1)))

end Cert.Spec

end
-- ==== Proof.Blocks.lean ====
/-
  From blocks to the whole result array.

  The output is written back in 25 blocks of 400 rows. Point t reads rows 400·t … 400·t + 399 of the adjacency
  (all 10000 columns), and the three resident inputs whole; its output block is those rows of A times the
  features, which is exactly rows 400·t … of the function `Spec.tgcn` of the four arguments. The 25 blocks tile
  the 10000 rows (row r is in block r / 400), so the result array ends holding `Spec.tgcn` everywhere.
-/
import proofs.«112131_g35424890258178_cont_8to1_b_1443_17_alg».proof.Proof.Carried
import proofs.«112131_g35424890258178_cont_8to1_b_1443_17_alg».proof.Proof.Payload
import proofs.«112131_g35424890258178_cont_8to1_b_1443_17_alg».proof.Proof.Spec
import proofs.«112131_g35424890258178_cont_8to1_b_1443_17_alg».proof.Proof.Gen.KernelIdeal.Value
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Carried ValueIdx

variable (m : (ℓ : Loc nD τ sig) → Buf (Elt Ideal) ℓ) (ρ : Dev nD → PrngReg)

/-! ## Names for the arrays and the blocks, at their literal types -/

/-- The node features x, -/
abbrev xs (c : Dev nD) : S10000x128.Idx → Ideal .f32 := m ((c : Thread nD τ).loc main_arg0)
/-- the adjacency A, -/
abbrev adj (c : Dev nD) : S10000x10000.Idx → Ideal .f32 := m ((c : Thread nD τ).loc main_arg1)
/-- the weight W, -/
abbrev wt (c : Dev nD) : S128x128.Idx → Ideal .f32 := m ((c : Thread nD τ).loc main_arg2)
/-- and the bias b, as launched. -/
abbrev bias (c : Dev nD) : S128.Idx → Ideal .f32 := m ((c : Thread nD τ).loc main_arg3)

/-- The three resident blocks at the first point, and the adjacency's slab at point `t`. -/
abbrev xblk (c : Dev nD) : Vec Ideal S10000x128 .f32 := iblk m c 0 first
abbrev wblk (c : Dev nD) : Vec Ideal S128x128 .f32 := iblk m c 1 first
abbrev bblk (c : Dev nD) : Vec Ideal S1x128 .f32 := iblk m c 2 first
abbrev ablk (c : Dev nD) (t : Fin cfg0.N) : Vec Ideal S400x10000 .f32 := iblk m c 3 t

/-- Row `p` of block `t` is row 400·t + p of the array. -/
abbrev rowOf (t : Fin cfg0.N) (p : Fin 400) : Fin 10000 :=
  ⟨400 * t.val + p.val, by have := lt_of_lt_of_eq t.isLt (show cfg0.N = 25 from N_0); have := p.isLt; omega⟩

/-! ## The index maps, decided over the grid -/

theorem idx_res : win0_0.index first (0 : Fin 2) = 0 ∧ win0_0.index first (1 : Fin 2) = 0
    ∧ win0_1.index first (0 : Fin 2) = 0 ∧ win0_1.index first (1 : Fin 2) = 0
    ∧ win0_2.index first (0 : Fin 2) = 0 ∧ win0_2.index first (1 : Fin 2) = 0 := by decide +kernel

theorem idx_slab : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

theorem idx_out : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-! ## The input blocks are the arguments, read where the block sits -/

/-- The resident block of x is x. -/
theorem x_block (c : Dev nD) (k : Fin 10000) (d : Fin 128) : xblk m c (ix2 k d) = xs m c (ix2 k d) := by
  show V m c main_arg0 (((cfg0.win 0).blk first).view.emb (ix2 k d)) = m ((c : Thread nD τ).loc main_arg0) (ix2 k d)
  rw [V_main_arg0]
  obtain ⟨e0, e1, -⟩ := idx_res
  refine congrArg _ (funext fun a => Fin.ext ?_)
  match a with
  | ⟨0, _⟩ => show win0_0.index first (0 : Fin 2) * 10000 + 1 * k.val = k.val; rw [e0]; omega
  | ⟨1, _⟩ => show win0_0.index first (1 : Fin 2) * 128 + 1 * d.val = d.val; rw [e1]; omega

/-- The resident block of W is W. -/
theorem w_block (c : Dev nD) (q : Fin 128) (d : Fin 128) : wblk m c (ix2 q d) = wt m c (ix2 q d) := by
  show V m c main_arg2 (((cfg0.win 1).blk first).view.emb (ix2 q d)) = m ((c : Thread nD τ).loc main_arg2) (ix2 q d)
  rw [V_main_arg2]
  obtain ⟨-, -, e0, e1, -⟩ := idx_res
  refine congrArg _ (funext fun a => Fin.ext ?_)
  match a with
  | ⟨0, _⟩ => show win0_1.index first (0 : Fin 2) * 128 + 1 * q.val = q.val; rw [e0]; omega
  | ⟨1, _⟩ => show win0_1.index first (1 : Fin 2) * 128 + 1 * d.val = d.val; rw [e1]; omega

/-- The bias row the region finds is the bias, reshaped to one row by the host before the call. -/
theorem bias_row (c : Dev nD) :
    (V m c main_call0_v0 : S1x128.Idx → Ideal .f32) = shapeCast S1x128 (bias m c) shapeCasts_S128_S1x128 := by
  dsimp only [Gen.V, Gen.hostOps0]
  after_results
  rfl

/-- The resident block of the bias row, at column q, is the bias at q. -/
theorem b_block (c : Dev nD) (q : Fin 128) : bblk m c (ix2 (0 : Fin 1) q) = bias m c (ix1 q) := by
  show (V m c main_call0_v0 : S1x128.Idx → Ideal .f32) (((cfg0.win 2).blk first).view.emb (ix2 (0 : Fin 1) q)) = _
  rw [bias_row]
  obtain ⟨-, -, -, -, e0, e1⟩ := idx_res
  refine shapeCast_apply _ _ _ _ ?_
  rw [Shape.rowMajor_val_one, Shape.rowMajor_val_two]
  show q.val = (win0_2.index first (0 : Fin 2) * 1 + 1 * 0) * 128 + (win0_2.index first (1 : Fin 2) * 128 + 1 * q.val)
  rw [e0, e1]; omega

/-- Point `t`'s slab of the adjacency: rows 400·t …, every column. -/
theorem a_block (c : Dev nD) (t : Fin cfg0.N) (p : Fin 400) (k : Fin 10000) :
    ablk m c t (ix2 p k) = adj m c (ix2 (rowOf t p) k) := by
  show V m c main_arg1 (((cfg0.win 3).blk t).view.emb (ix2 p k)) = m ((c : Thread nD τ).loc main_arg1) (ix2 (rowOf t p) k)
  rw [V_main_arg1]
  obtain ⟨e0, e1⟩ := idx_slab t
  refine congrArg _ (funext fun a => Fin.ext ?_)
  match a with
  | ⟨0, _⟩ => show win0_3.index t (0 : Fin 2) * 400 + 1 * p.val = 400 * t.val + p.val; rw [e0]; omega
  | ⟨1, _⟩ => show win0_3.index t (1 : Fin 2) * 10000 + 1 * k.val = k.val; rw [e1]; omega

/-! ## The features and a point's output block, over the arguments -/

/-- The features held in the scratch: h[k, q] = (∑ d, x[k, d] · W[q, d]) + b[q]. -/
theorem feats_at (c : Dev nD) (k : Fin 10000) (q : Fin 128) :
    feats m c (ix2 k q) = (∑ d : Fin 128, xs m c (ix2 k d) * wt m c (ix2 q d)) + bias m c (ix1 q) := by
  refine (Payload.feats_apply (xblk m c) (wblk m c) (bblk m c) k q).trans ?_
  refine congrArg₂ (· + ·) (Finset.sum_congr rfl fun d _ => ?_) (b_block m c q)
  exact congrArg₂ (· * ·) (x_block m c k d) (w_block m c q d)

/-- Where entry (p, q) of block `t` sits in the result array: row 400·t + p, column q. -/
theorem emb_out (t : Fin cfg0.N) (p : Fin 400) (q : Fin 128) :
    ((cfg0.win 4).blk t).view.emb (ix2 p q) = ix2 (rowOf t p) q := by
  obtain ⟨e0, e1⟩ := idx_out t
  refine funext fun a => Fin.ext ?_
  match a with
  | ⟨0, _⟩ => show win0_4.index t (0 : Fin 2) * 400 + 1 * p.val = 400 * t.val + p.val; rw [e0]; omega
  | ⟨1, _⟩ => show win0_4.index t (1 : Fin 2) * 128 + 1 * q.val = q.val; rw [e1]; omega

/-- WHAT POINT `t` WRITES BACK is block `t` of the graph convolution of the four arguments. -/
theorem flushed_eq (c : Dev nD) (t : Fin cfg0.N) :
    (dats m 0 c).flushed 4 t
      = ((cfg0.win 4).blk t).view.read (Elt Ideal) (Spec.tgcn (xs m c) (adj m c) (wt m c) (bias m c)) := by
  rw [Value.flushed4, out_eq]
  funext j
  obtain ⟨p, q, rfl⟩ : ∃ (p : Fin 400) (q : Fin 128), j = ix2 p q := ⟨j 0, j 1, eq_ix2 j⟩
  show k0_pay2 (ablk m c t) (feats m c) (ix2 p q)
    = Spec.tgcn (xs m c) (adj m c) (wt m c) (bias m c) (((cfg0.win 4).blk t).view.emb (ix2 p q))
  rw [emb_out]
  refine (Payload.out_apply (ablk m c t) (feats m c) p q).trans ?_
  refine Finset.sum_congr rfl fun k _ => ?_
  exact congrArg₂ (· * ·) (a_block m c t p k) (feats_at m c k q)

/-! ## The blocks tile the array -/

/-- An index of the array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Row r lies in block r / 400. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by omega⟩, rfl⟩
  obtain ⟨e0, e1⟩ := idx_out t
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; rw [e0]; omega
  | ⟨1, _⟩ => show win0_4.index t (1 : Fin 2) * 128 ≤ (i 1).val ∧ (i 1).val < win0_4.index t (1 : Fin 2) * 128 + 128; rw [e1]; omega

/-- THE RESULT ARRAY after the run is the graph convolution of the four arguments. -/
theorem final (c : Dev nD) :
    (dats m 0 c).arrAt 4 cfg0.N = Spec.tgcn (xs m c) (adj m c) (wt m c) (bias m c) :=
  (dats m 0 c).arrAt_eq_of_cover 4 (Spec.tgcn (xs m c) (adj m c) (wt m c) (bias m c)) (fun t _ => flushed_eq m c t) cover

/-- The run, read: the result at the graph convolution of the arguments, the arguments unchanged. -/
theorem run : θ_run defs (onTc (τ := τ) (main (F := Ideal))) ⟨m, fun _ => 0, ρ⟩ fun r => ∀ c : Dev nD,
      r.2.mem ((c : Thread nD τ).loc main_v0) = Spec.tgcn (xs m c) (adj m c) (wt m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefSide.lean ====
/-
  The reference computes the same function.

  Its program is: transpose W; x · Wᵀ; add the bias broadcast down the rows; A · (that); divide by the
  temperature 1.0. Read one operation at a time at an index, the matrix products are sums of products, the
  transpose swaps W's coordinates (so x[k, ·] meets W[q, ·]), and the quotient by 1 is the identity on every
  extended real. What is left is `Spec.tgcn`.
-/
import proofs.«112131_g35424890258178_cont_8to1_b_1443_17_alg».proof.Proof.Gen.ReferenceIdeal.Read
import proofs.«112131_g35424890258178_cont_8to1_b_1443_17_alg».proof.Proof.Spec

noncomputable section

open Idealize.ShloMosaic Idealize.ShloMosaic.TcCoe Idealize.SL.Sem

namespace Cert.ReferenceIdeal.RefValue

open Cert.ReferenceIdeal Cert.ReferenceIdeal.Read ValueIdx

/-- The word 1.0 denotes the real 1. -/
theorem one_word : Ideal.ofBits .f32 0x3F800000#32 = 1 := by
  simp [Ideal.ofBits, Ideal.ieee, -EReal.coe_mul]; norm_num

/-- Dividing by the temperature 1.0 changes nothing, at the infinities too. -/
theorem div_temperature (y : EReal) : Ideal.div y (Ideal.ofBits .f32 0x3F800000#32) = y := by
  rw [one_word, ← EReal.coe_one, Ideal.div_coe one_ne_zero, one_div, inv_one, EReal.coe_one, mul_one]

/-! ## The operations' index maps, over coordinates -/

theorem lhs_outer (i : S10000x128.Idx) (k : Fin 10000) : lidx_main_v5 i k = ix2 (i 0) k :=
  funext fun a => Fin.ext (by match a with | ⟨0, _⟩ => rfl | ⟨1, _⟩ => rfl)
theorem rhs_outer (i : S10000x128.Idx) (k : Fin 10000) : ridx_main_v5 i k = ix2 k (i 1) :=
  funext fun a => Fin.ext (by match a with | ⟨0, _⟩ => rfl | ⟨1, _⟩ => rfl)
theorem lhs_inner (k : Fin 10000) (q d : Fin 128) : lidx_main_v1 (ix2 k q) d = ix2 k d :=
  funext fun a => Fin.ext (by match a with | ⟨0, _⟩ => rfl | ⟨1, _⟩ => rfl)
/-- The transpose swaps W's coordinates: column q of Wᵀ at depth d is W[q, d]. -/
theorem rhs_inner (k : Fin 10000) (q d : Fin 128) : idx_main_v0 (ridx_main_v1 (ix2 k q) d) = ix2 q d :=
  funext fun a => Fin.ext (by match a with | ⟨0, _⟩ => rfl | ⟨1, _⟩ => rfl)
theorem bias_idx (k : Fin 10000) (q : Fin 128) : idx_main_v2 (idx_main_v3 (ix2 k q)) = ix1 q :=
  funext fun a => Fin.ext (by match a with | ⟨0, _⟩ => rfl)

/-- The reference's projected features at (k, q): (∑ d, x[k, d] · W[q, d]) + b[q]. -/
theorem feats_ref (x : (⟨S10000x128, .f32⟩ : BufTy).Contents (Elt Ideal)) (W : (⟨S128x128, .f32⟩ : BufTy).Contents (Elt Ideal))
    (b : (⟨S128, .f32⟩ : BufTy).Contents (Elt Ideal)) (k : Fin 10000) (q : Fin 128) :
    val_main_v4 (F := Ideal) x W b (ix2 k q) = (∑ d : Fin 128, x (ix2 k d) * W (ix2 q d)) + b (ix1 q) := by
  rw [val_main_v4_apply, val_main_v1_apply, val_main_v3_apply, val_main_v2_apply, bias_idx]
  simp only [val_main_v0_apply, lhs_inner, rhs_inner]
  rfl

/-- THE REFERENCE's result is the graph convolution of its four arguments. -/
theorem result_eq (x : (⟨S10000x128, .f32⟩ : BufTy).Contents (Elt Ideal)) (A : (⟨S10000x10000, .f32⟩ : BufTy).Contents (Elt Ideal))
    (W : (⟨S128x128, .f32⟩ : BufTy).Contents (Elt Ideal)) (b : (⟨S128, .f32⟩ : BufTy).Contents (Elt Ideal)) :
    val_main_v7 (F := Ideal) x A W b = Cert.Spec.tgcn x A W b := by
  funext i
  rw [val_main_v7_apply, val_main_v6_apply, val_main_cst_apply, val_main_v5_apply]
  show Ideal.div _ (Ideal.ofBits .f32 0x3F800000#32) = _
  rw [div_temperature]
  unfold Cert.Spec.tgcn
  refine Finset.sum_congr rfl fun k _ => ?_
  rw [lhs_outer, rhs_outer]
  exact congrArg _ (feats_ref x W b k (i 1))

end Cert.ReferenceIdeal.RefValue

end
-- ==== Proof.lean ====
/-
  A dense graph convolution, out = A · (x · Wᵀ + b) / 1: a tiled kernel against its plain reference.

  The kernel walks the 10000 × 10000 adjacency A in 25 slabs of 400 rows. At the first slab it computes the
  projected features h = x · Wᵀ + b once and parks them in a scratch buffer; every slab then multiplies its rows of A
  by the parked h and writes the corresponding 400 rows of the result. The reference computes x · Wᵀ + b, then
  A · (that), then divides by the temperature 1.0.

  On the extended reals a change of float format is the identity, so the parked features are exactly h. Both
  programs therefore end with
      out[i, j] = ∑ k, A[i, k] · ((∑ d, x[k, d] · W[j, d]) + b[j])
  (`Spec.tgcn`): the kernel because the scratch holds h after every point (it is written at the first point only),
  each point's block is its rows of that function, and the 25 blocks tile the rows; the reference by reading its
  operations one at a time, the quotient by 1 being the identity. No law beyond reading the two matrix products as
  sums is used, so the inputs' finiteness is never opened. The ideal pass rewrote nothing, so there is nothing to
  preserve; the two kernels' frames are the generated ones, and the reference's frame is its run.
-/
import proofs.«112131_g35424890258178_cont_8to1_b_1443_17_alg».proof.Defs
import proofs.«112131_g35424890258178_cont_8to1_b_1443_17_alg».proof.Proof.Gen.Kernel
import proofs.«112131_g35424890258178_cont_8to1_b_1443_17_alg».proof.Proof.Gen.Kernel.Skeleton
import proofs.«112131_g35424890258178_cont_8to1_b_1443_17_alg».proof.Proof.Gen.Kernel.Launch
import proofs.«112131_g35424890258178_cont_8to1_b_1443_17_alg».proof.Proof.Gen.Kernel.Points
import proofs.«112131_g35424890258178_cont_8to1_b_1443_17_alg».proof.Proof.Gen.Kernel.Frame
import proofs.«112131_g35424890258178_cont_8to1_b_1443_17_alg».proof.Proof.Gen.KernelIdeal
import proofs.«112131_g35424890258178_cont_8to1_b_1443_17_alg».proof.Proof.Gen.KernelIdeal.Skeleton
import proofs.«112131_g35424890258178_cont_8to1_b_1443_17_alg».proof.Proof.Gen.KernelIdeal.Launch
import proofs.«112131_g35424890258178_cont_8to1_b_1443_17_alg».proof.Proof.Gen.KernelIdeal.Points
import proofs.«112131_g35424890258178_cont_8to1_b_1443_17_alg».proof.Proof.Gen.KernelIdeal.Frame
import proofs.«112131_g35424890258178_cont_8to1_b_1443_17_alg».proof.Proof.Gen.ReferenceIdeal
import proofs.«112131_g35424890258178_cont_8to1_b_1443_17_alg».proof.Proof.Gen.Pre_finite_inputs
import proofs.«112131_g35424890258178_cont_8to1_b_1443_17_alg».proof.Proof.Gen.KernelIdeal.Value
import proofs.«112131_g35424890258178_cont_8to1_b_1443_17_alg».proof.Proof.Gen.ReferenceIdeal.Run
import proofs.«112131_g35424890258178_cont_8to1_b_1443_17_alg».proof.Proof.Gen.ReferenceIdeal.Read
import proofs.«112131_g35424890258178_cont_8to1_b_1443_17_alg».proof.Proof.Blocks
import proofs.«112131_g35424890258178_cont_8to1_b_1443_17_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals. -/
theorem preserves : Cert.preserves_Kernel_KernelIdeal := trivial

/-- Both programs end with the graph convolution of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
